-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x4096 : Shape := ⟨3, ![4, 64, 4096]⟩
abbrev S262144x2 : Shape := ⟨2, ![262144, 2]⟩
abbrev S262144 : Shape := ⟨1, ![262144]⟩
abbrev S_ : Shape := ⟨0, ![]⟩

class Facts : Prop where
  bcast_S_S4x64x4096 : S_.BroadcastsInDim S4x64x4096 (![] : Fin 0 → Fin S4x64x4096.rank)
  reducesTo_S4x64x4096_S_d0_1_2 : S4x64x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S262144x2 : S_.BroadcastsInDim S262144x2 (![] : Fin 0 → Fin S262144x2.rank)
  reducesTo_S262144x2_S_d0_1 : S262144x2.ReducesTo [0, 1] S_

variable [Facts]

def fn {F : FTy → Type} [FloatOps F] (main_arg0 : FVec F S4x64x4096 .f32) (main_arg1 : IVec S262144x2 32) (main_arg2 : FVec F S262144 .f32) : IVec S_ 1 :=
  let main_v0 : FVec F S4x64x4096 .f32 := Host.absf main_arg0
  let main_cst : FVec F S_ .f32 := constant S_ .f32 0x7F800000#32
  let main_v1 : FVec F S4x64x4096 .f32 := broadcastInDim S4x64x4096 ![] bcast_S_S4x64x4096 main_cst
  let main_v2 : IVec S4x64x4096 1 := cmpf .olt main_v0 main_v1
  let main_c : IVec S_ 1 := constantI S_ 1 1#1
  let main_v3 : IVec S_ 1 := (fun x v => Host.reduce IntOp.andi x v reducesTo_S4x64x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_c_2 : IVec S_ 32 := constantI S_ 32 0#32
  let main_v9 : IVec S262144x2 32 := broadcastInDim S262144x2 ![] bcast_S_S262144x2 main_c_2
  let main_v10 : IVec S262144x2 1 := cmpi .sge main_arg1 main_v9
  let main_c_3 : IVec S_ 1 := constantI S_ 1 1#1
  let main_v11 : IVec S_ 1 := (fun x v => Host.reduce IntOp.andi x v reducesTo_S262144x2_S_d0_1 h_S_) main_v10 main_c_3
  let main_v12 : IVec S_ 1 := andi main_v8 main_v11
  main_v12
-- ==== Kernel.lean ====
abbrev S4x64x4096 : Shape := ⟨3, ![4, 64, 4096]⟩
abbrev S262144x2 : Shape := ⟨2, ![262144, 2]⟩
abbrev S262144 : Shape := ⟨1, ![262144]⟩
abbrev S256x4096 : Shape := ⟨2, ![256, 4096]⟩
abbrev S262144x1 : Shape := ⟨2, ![262144, 1]⟩
abbrev S_ : Shape := ⟨0, ![]⟩
abbrev S4096x4096 : Shape := ⟨2, ![4096, 4096]⟩
abbrev S4096x1024 : Shape := ⟨2, ![4096, 1024]⟩
abbrev S256x1024 : Shape := ⟨2, ![256, 1024]⟩

abbrev nBuf : Space → Nat
  | .hbm => 40
  | .vmem => 5
  | .smem => 0
  | _ => 0

abbrev bufTy : (tb : Table) → Fin (tcTables nBuf tb) → BufTy
  | .hbm, ⟨0, _⟩ => ⟨S4x64x4096, .f32⟩
  | .hbm, ⟨1, _⟩ => ⟨S262144x2, .i32⟩
  | .hbm, ⟨2, _⟩ => ⟨S262144, .f32⟩
  | .hbm, ⟨3, _⟩ => ⟨S256x4096, .f32⟩
  | .hbm, ⟨4, _⟩ => ⟨S262144x1, .i32⟩
  | .hbm, ⟨5, _⟩ => ⟨S262144, .i32⟩
  | .hbm, ⟨6, _⟩ => ⟨S262144x1, .i32⟩
  | .hbm, ⟨7, _⟩ => ⟨S262144, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S_, .f32⟩
  | .hbm, ⟨17, _⟩ => ⟨S4096x4096, .f32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x1, .i32⟩
  | .hbm, ⟨34, _⟩ => ⟨S262144x2, .i32⟩
  | .hbm, ⟨35, _⟩ => ⟨S4096x4096, .f32⟩
  | .hbm, ⟨36, _⟩ => ⟨S4096x4096, .bf16⟩
  | .hbm, ⟨37, _⟩ => ⟨S256x4096, .bf16⟩
  | .hbm, ⟨38, _⟩ => ⟨S256x4096, .f32⟩
  | .hbm, ⟨39, _⟩ => ⟨S4x64x4096, .f32⟩
  | .local _ .vmem, ⟨0, _⟩ => ⟨S256x4096, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x64x4096_S256x4096 : S4x64x4096.ShapeCasts S256x4096
  slices_S262144x2_S262144x1_0_0 : S262144x2.Slices ![0, 0] S262144x1
  shapeCasts_S262144x1_S262144 : S262144x1.ShapeCasts S262144
  slices_S262144x2_S262144x1_0_1 : S262144x2.Slices ![0, 1] S262144x1
  bcast_S_S262144 : S_.BroadcastsInDim S262144 (![] : Fin 0 → Fin S262144.rank)
  bcast_S_S4096x4096 : S_.BroadcastsInDim S4096x4096 (![] : Fin 0 → Fin S4096x4096.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x1024_S256x1024_0_0 : ∀ a, (![0, 0] : Fin 2 → Nat) a + S256x1024.size a ≤ S256x1024.size a
  h_S256x1024 : 0 < S256x1024.numel
  shapeCasts_S256x4096_S4x64x4096 : S256x4096.ShapeCasts S4x64x4096
  scatter_S4096x4096_S262144x2_S262144_n_01_01_1_wf : ScatterDims.WF S4096x4096 S262144x2 S262144 [] [0, 1] [0, 1] 1
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x4096.size a
  hwx0_2 : ∀ i : grid0.Coords, EltTy.bits .f32 = 32 ∨ (Rect.block (s := S256x4096) S256x1024.size (cc0_transform_2 i) (hinb0_2 i)).WholeWords (EltTy.packing .f32)

variable [Facts₀]

def scatter_S4096x4096_S262144x2_S262144_n_01_01_1 : ScatterDims S4096x4096 S262144x2 S262144 where
  updateWindowDims := []
  insertedWindowDims := [0, 1]
  scatterDimsToOperandDims := [0, 1]
  indexVectorDim := 1
  wf := scatter_S4096x4096_S262144x2_S262144_n_01_01_1_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v22) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x4096 : Shape := ⟨3, ![4, 64, 4096]⟩
abbrev S262144x2 : Shape := ⟨2, ![262144, 2]⟩
abbrev S262144 : Shape := ⟨1, ![262144]⟩
abbrev S256x4096 : Shape := ⟨2, ![256, 4096]⟩
abbrev S262144x1 : Shape := ⟨2, ![262144, 1]⟩
abbrev S_ : Shape := ⟨0, ![]⟩
abbrev S256x262144 : Shape := ⟨2, ![256, 262144]⟩
abbrev S1x262144 : Shape := ⟨2, ![1, 262144]⟩
abbrev S262144x256 : Shape := ⟨2, ![262144, 256]⟩
abbrev S4096x256 : Shape := ⟨2, ![4096, 256]⟩

abbrev nBuf : Space → Nat
  | .hbm => 27
  | .vmem => 0
  | .smem => 0
  | _ => 0

abbrev bufTy : (tb : Table) → Fin (tcTables nBuf tb) → BufTy
  | .hbm, ⟨0, _⟩ => ⟨S4x64x4096, .f32⟩
  | .hbm, ⟨1, _⟩ => ⟨S262144x2, .i32⟩
  | .hbm, ⟨2, _⟩ => ⟨S262144, .f32⟩
  | .hbm, ⟨3, _⟩ => ⟨S256x4096, .f32⟩
  | .hbm, ⟨4, _⟩ => ⟨S262144x1, .i32⟩
  | .hbm, ⟨5, _⟩ => ⟨S262144, .i32⟩
  | .hbm, ⟨6, _⟩ => ⟨S262144x1, .i32⟩
  | .hbm, ⟨7, _⟩ => ⟨S262144, .i32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S256x262144, .f32⟩
  | .hbm, ⟨17, _⟩ => ⟨S1x262144, .f32⟩
  | .hbm, ⟨18, _⟩ => ⟨S256x262144, .f32⟩
  | .hbm, ⟨19, _⟩ => ⟨S256x262144, .f32⟩
  | .hbm, ⟨20, _⟩ => ⟨S262144x256, .f32⟩
  | .hbm, ⟨21, _⟩ => ⟨S_, .f32⟩
  | .hbm, ⟨22, _⟩ => ⟨S4096x256, .f32⟩
  | .hbm, ⟨23, _⟩ => ⟨S262144x1, .i32⟩
  | .hbm, ⟨24, _⟩ => ⟨S4096x256, .f32⟩
  | .hbm, ⟨25, _⟩ => ⟨S256x4096, .f32⟩
  | .hbm, ⟨26, _⟩ => ⟨S4x64x4096, .f32⟩
  | _, _ => ⟨S4x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  shapeCasts_S4x64x4096_S256x4096 : S4x64x4096.ShapeCasts S256x4096
  slices_S262144x2_S262144x1_0_0 : S262144x2.Slices ![0, 0] S262144x1
  shapeCasts_S262144x1_S262144 : S262144x1.ShapeCasts S262144
  slices_S262144x2_S262144x1_0_1 : S262144x2.Slices ![0, 1] S262144x1
  bcast_S_S262144 : S_.BroadcastsInDim S262144 (![] : Fin 0 → Fin S262144.rank)
  bcast_S262144_S262144x1_0 : S262144.BroadcastsInDim S262144x1 (![0] : Fin 1 → Fin S262144x1.rank)
  bcast_S262144_S1x262144_1 : S262144.BroadcastsInDim S1x262144 (![1] : Fin 1 → Fin S1x262144.rank)
  bcast_S1x262144_S256x262144_0_1 : S1x262144.BroadcastsInDim S256x262144 (![0, 1] : Fin 2 → Fin S256x262144.rank)
  transposes_S256x262144_S262144x256_1_0 : S256x262144.Transposes [1, 0] S262144x256
  bcast_S_S4096x256 : S_.BroadcastsInDim S4096x256 (![] : Fin 0 → Fin S4096x256.rank)
  transposes_S4096x256_S256x4096_1_0 : S4096x256.Transposes [1, 0] S256x4096
  shapeCasts_S256x4096_S4x64x4096 : S256x4096.ShapeCasts S4x64x4096
  gather_S256x4096_S262144x1_S256x262144_0_1_n_n_1_1_2561_wf : GatherDims.WF S256x4096 S262144x1 S256x262144 [0] [1] [] [1] [] 1 ![256, 1]
  scatter_S4096x256_S262144x1_S262144x256_1_0_0_1_wf : ScatterDims.WF S4096x256 S262144x1 S262144x256 [1] [0] [0] 1

variable [Facts₀]

def gather_S256x4096_S262144x1_S256x262144_0_1_n_n_1_1_2561 : GatherDims S256x4096 S262144x1 S256x262144 where
  offsetDims := [0]
  collapsedSliceDims := [1]
  operandBatchingDims := []
  startIndicesBatchingDims := []
  startIndexMap := [1]
  indexVectorDim := 1
  sliceSizes := ![256, 1]
  wf := gather_S256x4096_S262144x1_S256x262144_0_1_n_n_1_1_2561_wf
def scatter_S4096x256_S262144x1_S262144x256_1_0_0_1 : ScatterDims S4096x256 S262144x1 S262144x256 where
  updateWindowDims := [1]
  insertedWindowDims := [0]
  scatterDimsToOperandDims := [0]
  indexVectorDim := 1
  wf := scatter_S4096x256_S262144x1_S262144x256_1_0_0_1_wf

class Facts : Prop extends Facts₀ where

variable [Facts]
-- ==== Proof.Spec.lean ====
/-
  The function both programs compute, over the extended reals.

  `rows` is the input `x` flattened to 256 rows of 4096 columns.  Entry `k` of the coordinate list names an
  output column `coords[k, 0]` and an input column `coords[k, 1]`, with weight `w[k]`:

      y[r, o] = Σ_{k : coords[k, 0] = o}  rows[r, in(k)] · w[k]

  where `in(k)` is `coords[k, 1]` read as a signed integer and clamped into `[0, 4095]`.  An entry whose output
  column is outside `[0, 4096)` names no `o` and contributes nothing.
-/
import Idealize.ShloMosaic.Lib.ValueIdx

noncomputable section

open scoped BigOperators

namespace Cert.Spec

open Idealize.ShloMosaic Idealize.ShloMosaic.ValueIdx

abbrev SRows : Shape := ⟨2, ![256, 4096]⟩
abbrev SPairs : Shape := ⟨2, ![262144, 2]⟩
abbrev SWts : Shape := ⟨1, ![262144]⟩
abbrev STab : Shape := ⟨2, ![4096, 4096]⟩

/-- The input column entry `k` reads: `coords[k, 1]` signed, clamped into `[0, 4095]`. -/
def inCol (coords : IVec SPairs 32) (k : Fin 262144) : Fin 4096 :=
  ⟨min (coords (ix2 k 1)).toInt.toNat 4095, by omega⟩

/-- The output column entry `k` names, as a signed integer. -/
def outCol (coords : IVec SPairs 32) (k : Fin 262144) : Int := (coords (ix2 k 0)).toInt

/-- `y[r, o]`: the sum over the entries naming output column `o`. -/
def Yat (rows : SRows.Idx → EReal) (coords : IVec SPairs 32) (w : SWts.Idx → EReal) (r : Fin 256) (o : Fin 4096) : EReal :=
  ∑ k ∈ Finset.univ.filter (fun k : Fin 262144 => outCol coords k = (o.val : Int)),
    rows (ix2 r (inCol coords k)) * w (ix1 k)

/-- The result as a 256 × 4096 array. -/
def Y (rows : SRows.Idx → EReal) (coords : IVec SPairs 32) (w : SWts.Idx → EReal) : SRows.Idx → EReal :=
  fun j => Yat rows coords w ⟨(j 0).val, idx2_lt0 j⟩ ⟨(j 1).val, idx2_lt1 j⟩

/-- The product of the rows with a 4096 × 4096 table: `Σ_i rows[r, i] · tab[i, o]`. -/
def Kat (rows : SRows.Idx → EReal) (tab : STab.Idx → EReal) (r : Fin 256) (o : Fin 4096) : EReal :=
  ∑ i : Fin 4096, rows (ix2 r i) * tab (ix2 i o)

/-- The same as a 256 × 4096 array. -/
def Knat (rows : SRows.Idx → EReal) (tab : STab.Idx → EReal) : SRows.Idx → EReal :=
  fun j => Kat rows tab ⟨(j 0).val, idx2_lt0 j⟩ ⟨(j 1).val, idx2_lt1 j⟩

end Cert.Spec

end
-- ==== Proof.KernelIdx.lean ====
/-
  The index pairs at which the kernel's program scatters the weights, as its host operations compute them from
  `coords`, and the table of weights the scatter builds.

  Column 0 of the pairs is the input column: `coords[k, 1]` clipped into `[0, 4095]` (and then, being non-negative,
  left alone by the wrap of negative indices).  Column 1 is the output column: `coords[k, 0]`, with `4096` added when
  it is negative.  For non-negative `coords` the first is the clamped input column of the specification and the second
  is `coords[k, 0]` itself.
-/
import proofs.«414872_j17222818857169_3_alg».proof.Proof.Gen.KernelIdeal
import proofs.«414872_j17222818857169_3_alg».proof.Proof.Spec
import Idealize.ShloMosaic.Lib.Pipeline.Value

noncomputable section

namespace Cert.KernelIdx

open Cert.KernelIdeal Idealize.ShloMosaic Idealize.ShloMosaic.ValueIdx

/-- The scatter's index pairs, operation for operation as the program computes them. -/
def scIdx (coords : IVec S262144x2 32) : IVec S262144x2 32 :=
  let out : IVec S262144 32 :=
    shapeCast S262144 (extractStridedSlice S262144x1 ![0, 0] coords Facts₀.slices_S262144x2_S262144x1_0_0) Facts₀.shapeCasts_S262144x1_S262144
  let inn : IVec S262144 32 :=
    shapeCast S262144 (extractStridedSlice S262144x1 ![0, 1] coords Facts₀.slices_S262144x2_S262144x1_0_1) Facts₀.shapeCasts_S262144x1_S262144
  let lo : IVec S262144 32 := broadcastInDim S262144 ![] Facts₀.bcast_S_S262144 (constantI S_ 32 0#32)
  let hi : IVec S262144 32 := broadcastInDim S262144 ![] Facts₀.bcast_S_S262144 (constantI S_ 32 4095#32)
  let clipped : IVec S262144 32 := minsi hi (maxsi lo inn)
  let zero : IVec S262144 32 := broadcastInDim S262144 ![] Facts₀.bcast_S_S262144 (constantI S_ 32 0#32)
  let n : IVec S262144 32 := broadcastInDim S262144 ![] Facts₀.bcast_S_S262144 (constantI S_ 32 4096#32)
  let inW : IVec S262144 32 := select (cmpi .slt clipped zero) (addi clipped n) clipped
  let outW : IVec S262144 32 := select (cmpi .slt out zero) (addi out n) out
  concatenate S262144x2 1
    [⟨S262144x1, broadcastInDim S262144x1 ![0] Facts₀.bcast_S262144_S262144x1_0 inW⟩,
     ⟨S262144x1, broadcastInDim S262144x1 ![0] Facts₀.bcast_S262144_S262144x1_0 outW⟩]
    Facts₀.concatenates_S262144x1_S262144x1_S262144x2_d1

/-- The 4096 × 4096 table of weights: zeros with `w[k]` added at each pair. -/
def table (coords : IVec S262144x2 32) (w : FVec Ideal S262144 .f32) : FVec Ideal S4096x4096 .f32 :=
  Host.scatterAdd scatter_S4096x4096_S262144x2_S262144_n_01_01_1
    (broadcastInDim S4096x4096 ![] Facts₀.bcast_S_S4096x4096 (constant S_ .f32 0x00000000#32)) (scIdx coords) w

/-! ### The words

`coords` holds non-negative signed words.  On such a word the lower clamp at `0` does nothing, the upper clamp at `4095`
is the minimum of the integers, and the wrap of negative indices (add `4096` when below `0`) does nothing. -/

private theorem toInt_zero32 : (0#32 : BitVec 32).toInt = 0 := by decide

private theorem toInt_4095 : (4095#32 : BitVec 32).toInt = 4095 := by decide

/-- A non-negative word is not below `0`. -/
private theorem slt_zero_of_nonneg (v : BitVec 32) (hv : 0 ≤ v.toInt) : v.slt 0#32 = false := by
  rw [Bool.eq_false_iff]
  intro h
  rw [BitVec.slt_iff_toInt_lt, toInt_zero32] at h
  omega

/-- The wrap of negative indices leaves a non-negative word alone. -/
private theorem wrap_of_nonneg (v : BitVec 32) (hv : 0 ≤ v.toInt) :
    Scalar.select (IntOp.cmpi .slt v 0#32) (IntOp.addi v 4096#32) v = v := by
  unfold Scalar.select IntOp.cmpi
  simp only [slt_zero_of_nonneg v hv]
  rfl

/-- The clamp of a non-negative word into `[0, 4095]` is the smaller of it and `4095`, as integers. -/
private theorem clip_of_nonneg (v : BitVec 32) (hv : 0 ≤ v.toInt) :
    (IntOp.minsi 4095#32 (IntOp.maxsi 0#32 v)).toInt = min v.toInt 4095 := by
  have hmax : IntOp.maxsi 0#32 v = v := by
    unfold IntOp.maxsi
    rw [slt_zero_of_nonneg v hv]
    rfl
  rw [hmax]
  unfold IntOp.minsi
  by_cases h : (4095#32 : BitVec 32).slt v = true
  · rw [if_pos h, toInt_4095]
    rw [BitVec.slt_iff_toInt_lt, toInt_4095] at h
    omega
  · rw [if_neg h]
    rw [BitVec.slt_iff_toInt_lt, toInt_4095] at h
    omega

/-! ### The two columns of `coords`, as the program slices and reshapes them -/

/-- The reshaped slice `[0:262144, 0:1]` at `k` is `coords[k, 0]`. -/
private theorem outSlice_apply (coords : IVec S262144x2 32) (k : Fin 262144) :
    shapeCast S262144 (extractStridedSlice S262144x1 ![0, 0] coords Facts₀.slices_S262144x2_S262144x1_0_0)
      Facts₀.shapeCasts_S262144x1_S262144 (ix1 k) = coords (ix2 k 0) := by
  refine (shapeCast_apply _ Facts₀.shapeCasts_S262144x1_S262144 (ix1 k) (ix2 k (0 : Fin 1)) ?_).trans ?_
  · rewrite [Shape.rowMajor_val_two, Shape.rowMajor_val_one]
    show k.val * 1 + 0 = k.val
    omega
  · exact extractStridedSlice_apply ![0, 0] coords Facts₀.slices_S262144x2_S262144x1_0_0 (ix2 k (0 : Fin 1))
      (ix2 k (0 : Fin 2)) (fun a => match a with
        | ⟨0, _⟩ => by show k.val = 0 + k.val; omega
        | ⟨1, _⟩ => by show (0 : Nat) = 0 + 0; omega)

/-- The reshaped slice `[0:262144, 1:2]` at `k` is `coords[k, 1]`. -/
private theorem inSlice_apply (coords : IVec S262144x2 32) (k : Fin 262144) :
    shapeCast S262144 (extractStridedSlice S262144x1 ![0, 1] coords Facts₀.slices_S262144x2_S262144x1_0_1)
      Facts₀.shapeCasts_S262144x1_S262144 (ix1 k) = coords (ix2 k 1) := by
  refine (shapeCast_apply _ Facts₀.shapeCasts_S262144x1_S262144 (ix1 k) (ix2 k (0 : Fin 1)) ?_).trans ?_
  · rewrite [Shape.rowMajor_val_two, Shape.rowMajor_val_one]
    show k.val * 1 + 0 = k.val
    omega
  · exact extractStridedSlice_apply ![0, 1] coords Facts₀.slices_S262144x2_S262144x1_0_1 (ix2 k (0 : Fin 1))
      (ix2 k (1 : Fin 2)) (fun a => match a with
        | ⟨0, _⟩ => by show k.val = 0 + k.val; omega
        | ⟨1, _⟩ => by show (1 : Nat) = 1 + 0; omega)

/-! ### The pairs read at `(k, 0)` and `(k, 1)` -/

/-- A vector laid out as a column reads, in row `k`, its entry `k`. -/
private theorem column_apply (x : IVec S262144 32) (k : Fin 262144) :
    broadcastInDim S262144x1 ![0] Facts₀.bcast_S262144_S262144x1_0 x (ix2 k (0 : Fin 1)) = x (ix1 k) :=
  broadcastInDim_apply _ Facts₀.bcast_S262144_S262144x1_0 x (ix2 k (0 : Fin 1)) (ix1 k) (fun a => match a with
    | ⟨0, _⟩ => by show k.val = if (262144 : Nat) = 1 then 0 else k.val; rw [if_neg (by decide)])

/-- Column 0 of the pairs at row `k`: `coords[k, 1]` clamped, then wrapped. -/
private theorem scIdx_col0 (coords : IVec S262144x2 32) (k : Fin 262144) :
    scIdx coords (ix2 k 0) =
      Scalar.select (IntOp.cmpi .slt (IntOp.minsi 4095#32 (IntOp.maxsi 0#32 (coords (ix2 k 1)))) 0#32)
        (IntOp.addi (IntOp.minsi 4095#32 (IntOp.maxsi 0#32 (coords (ix2 k 1)))) 4096#32)
        (IntOp.minsi 4095#32 (IntOp.maxsi 0#32 (coords (ix2 k 1)))) := by
  unfold scIdx
  refine (concatenate_pair_apply_left 1 _ _ Facts₀.concatenates_S262144x1_S262144x1_S262144x2_d1 (ix2 k (0 : Fin 2)) rfl
    (ix2 k (0 : Fin 1)) (fun b => match b with
      | ⟨0, _⟩ => rfl
      | ⟨1, _⟩ => rfl)).trans ?_
  refine (column_apply _ k).trans ?_
  rw [← inSlice_apply coords k]
  rfl

/-- Column 1 of the pairs at row `k`: `coords[k, 0]` wrapped. -/
private theorem scIdx_col1 (coords : IVec S262144x2 32) (k : Fin 262144) :
    scIdx coords (ix2 k 1) =
      Scalar.select (IntOp.cmpi .slt (coords (ix2 k 0)) 0#32) (IntOp.addi (coords (ix2 k 0)) 4096#32)
        (coords (ix2 k 0)) := by
  unfold scIdx
  refine (concatenate_pair_apply_right 1 _ _ Facts₀.concatenates_S262144x1_S262144x1_S262144x2_d1 (ix2 k (1 : Fin 2)) rfl rfl
    (ix2 k (0 : Fin 1)) (fun b hb => match b with
      | ⟨0, _⟩ => rfl
      | ⟨1, _⟩ => absurd rfl hb) rfl).trans ?_
  refine (column_apply _ k).trans ?_
  rw [← outSlice_apply coords k]
  rfl

/-- For non-negative `coords`, column 0 of the pairs is the specification's clamped input column. -/
theorem scIdx_in (coords : IVec S262144x2 32) (hnn : ∀ i, 0 ≤ (coords i).toInt) (k : Fin 262144) :
    (scIdx coords (ix2 k 0)).toInt = ((Cert.Spec.inCol coords k).val : Int) := by
  have hv : 0 ≤ (coords (ix2 k 1)).toInt := hnn _
  have hc := clip_of_nonneg (coords (ix2 k 1)) hv
  rw [scIdx_col0, wrap_of_nonneg _ (by rw [hc]; omega), hc]
  show min (coords (ix2 k 1)).toInt 4095 = ((min (coords (ix2 k 1)).toInt.toNat 4095 : Nat) : Int)
  omega

/-- For non-negative `coords`, column 1 of the pairs is `coords[k, 0]` itself. -/
theorem scIdx_out (coords : IVec S262144x2 32) (hnn : ∀ i, 0 ≤ (coords i).toInt) (k : Fin 262144) :
    (scIdx coords (ix2 k 1)).toInt = Cert.Spec.outCol coords k := by
  rw [scIdx_col1, wrap_of_nonneg _ (hnn _)]
  rfl

end Cert.KernelIdx

end
-- ==== Proof.KernelRun.lean ====
/-
  What the kernel's program leaves in its result: the rows of `x` times the table of weights, block by block.

  The grid has four points; point `n` multiplies all 256 rows (4096 columns, staged once) by columns
  `1024·n … 1024·n + 1023` of the table and writes that 256 × 1024 block of the result.  The four blocks tile the
  256 × 4096 result, which the last host operation reshapes to 4 × 64 × 4096.
-/
import proofs.«414872_j17222818857169_3_alg».proof.Proof.Gen.KernelIdeal.Frame
import proofs.«414872_j17222818857169_3_alg».proof.Proof.KernelIdx
import proofs.«414872_j17222818857169_3_alg».proof.Proof.Spec
import Idealize.ShloMosaic.Lib.Pipeline.Value
import Idealize.ShloMosaic.Lib.StableHlo.Run
import Idealize.ShloMosaic.PureOps.Ideal.Laws

noncomputable section

namespace Cert.KernelRun

open Cert.KernelIdeal Cert.KernelIdeal.Gen Idealize.ShloMosaic Idealize.ShloMosaic.TcCoe Idealize.ShloMosaic.ValueIdx
open Idealize.SL.Sem

/-! ## The payload at an index -/

/-- The left operand's row coordinate is the result's row. -/
private theorem lhs_ax0 (j : S256x1024.Idx) (k : dot_S256x4096_S4096x1024_S256x1024_1_0_0_1_n_n.contr.Idx) :
    ((dot_S256x4096_S4096x1024_S256x1024_1_0_0_1_n_n.lhsIdx j k) 0).val = (j 0).val := by
  unfold DotDims.lhsIdx
  rw [dif_neg (show ¬ (0 : Fin S256x4096.rank) ∈ dot_S256x4096_S4096x1024_S256x1024_1_0_0_1_n_n.lhsBatch by decide),
    dif_pos (show (0 : Fin S256x4096.rank) ∈ dot_S256x4096_S4096x1024_S256x1024_1_0_0_1_n_n.lhsNonContracting by decide)]
  rfl

/-- The left operand's column coordinate is the contraction position. -/
private theorem lhs_ax1 (j : S256x1024.Idx) (k : dot_S256x4096_S4096x1024_S256x1024_1_0_0_1_n_n.contr.Idx) :
    ((dot_S256x4096_S4096x1024_S256x1024_1_0_0_1_n_n.lhsIdx j k) 1).val = (k ⟨0, by decide⟩).val :=
  dot_S256x4096_S4096x1024_S256x1024_1_0_0_1_n_n.lhsIdx_val_of_single (cl := 1) rfl j k

/-- The right operand's row coordinate is the contraction position. -/
private theorem rhs_ax0 (j : S256x1024.Idx) (k : dot_S256x4096_S4096x1024_S256x1024_1_0_0_1_n_n.contr.Idx) :
    ((dot_S256x4096_S4096x1024_S256x1024_1_0_0_1_n_n.rhsIdx j k) 0).val = (k ⟨0, by decide⟩).val :=
  dot_S256x4096_S4096x1024_S256x1024_1_0_0_1_n_n.rhsIdx_val_of_single (cr := 0) rfl j k

/-- The right operand's column coordinate is the result's column. -/
private theorem rhs_ax1 (j : S256x1024.Idx) (k : dot_S256x4096_S4096x1024_S256x1024_1_0_0_1_n_n.contr.Idx) :
    ((dot_S256x4096_S4096x1024_S256x1024_1_0_0_1_n_n.rhsIdx j k) 1).val = (j 1).val := by
  unfold DotDims.rhsIdx
  rw [dif_neg (show ¬ (1 : Fin S4096x1024.rank) ∈ dot_S256x4096_S4096x1024_S256x1024_1_0_0_1_n_n.rhsBatch by decide),
    dif_pos (show (1 : Fin S4096x1024.rank) ∈ dot_S256x4096_S4096x1024_S256x1024_1_0_0_1_n_n.rhsNonContracting by decide)]
  rfl

/-- The body's product at row `p`, column `q` of its block: the row of the staged rows against the column of the
    staged table block. -/
private theorem pay_apply (x0 : Vec Ideal S256x4096 .bf16) (x1 : Vec Ideal S4096x1024 .bf16) (p : Fin 256) (q : Fin 1024) :
    k0_pay1 x0 x1 (ix2 p q) = ∑ i : Fin 4096, (x0 (ix2 p i) : EReal) * (x1 (ix2 i q) : EReal) := by
  unfold k0_pay1
  rw [shapeCast_self, shapeCast_self]
  refine (Ideal.matmul_constant_zero_apply (φ₁ := .bf16) (φ₂ := .bf16) dot_S256x4096_S4096x1024_S256x1024_1_0_0_1_n_n none x0 x1 (ix2 p q)).trans ?_
  rw [← Equiv.sum_comp (contrEquiv1 dot_S256x4096_S4096x1024_S256x1024_1_0_0_1_n_n 4096 rfl rfl).symm]
  refine Finset.sum_congr rfl fun i _ => ?_
  have hk := contrEquiv1_symm_val dot_S256x4096_S4096x1024_S256x1024_1_0_0_1_n_n 4096 rfl rfl i
  congr 2
  · funext a; apply Fin.ext
    match a with
    | ⟨0, _⟩ => exact lhs_ax0 _ _
    | ⟨1, _⟩ => exact (lhs_ax1 _ _).trans hk
  · funext a; apply Fin.ext
    match a with
    | ⟨0, _⟩ => exact (rhs_ax0 _ _).trans hk
    | ⟨1, _⟩ => exact rhs_ax1 _ _

/-! ## From the blocks to the array -/

section Blocks

variable (m : (ℓ : Loc nD τ sig) → Buf (Elt Ideal) ℓ)

private theorem hz : (![0, 0] : Fin 2 → Nat) = fun _ => 0 := funext fun a => by fin_cases a <;> rfl

/-- The block indices over the grid: the rows' window stays at block (0, 0); the table's and the result's windows
    are at column block `t`. -/
private theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The rows as the region finds them. -/
private abbrev rowsV (c : Dev nD) : S256x4096.Idx → EReal := V m c main_v22
/-- The table as the region finds it. -/
private abbrev tabV (c : Dev nD) : S4096x4096.Idx → EReal := V m c main_v21

/-- The rows' block at any point is the whole array of rows. -/
private theorem rows_blk (c : Dev nD) (t : Fin cfg0.N) (y : S256x4096.Idx) :
    (iblk m c 0 t : Vec Ideal S256x4096 .bf16) y = rowsV m c y := by
  obtain ⟨e0, e1, -⟩ := idx_facts t
  unfold iblk
  rw [View.read_apply]
  show V m c main_v22 _ = V m c main_v22 _
  congr 1
  funext a; apply Fin.ext
  match a with
  | ⟨0, _⟩ => show win0_0.index t (0 : Fin 2) * 256 + 1 * (y 0).val = (y 0).val; rw [e0]; omega
  | ⟨1, _⟩ => show win0_0.index t (1 : Fin 2) * 4096 + 1 * (y 1).val = (y 1).val; rw [e1]; omega

/-- The table's block at point `t` is columns `1024·t … 1024·t + 1023` of the table. -/
private theorem tab_blk (c : Dev nD) (t : Fin cfg0.N) (i : Fin 4096) (q : Fin 1024) (o : Fin 4096) (ho : o.val = 1024 * t.val + q.val) :
    (iblk m c 1 t : Vec Ideal S4096x1024 .bf16) (ix2 i q) = tabV m c (ix2 i o) := by
  obtain ⟨-, -, e0, e1, -⟩ := idx_facts t
  unfold iblk
  rw [View.read_apply]
  show V m c main_v21 _ = V m c main_v21 _
  congr 1
  funext a; apply Fin.ext
  match a with
  | ⟨0, _⟩ => show win0_1.index t (0 : Fin 2) * 4096 + 1 * i.val = i.val; rw [e0]; omega
  | ⟨1, _⟩ => show win0_1.index t (1 : Fin 2) * 1024 + 1 * q.val = o.val; rw [e1, ho]; omega

/-- The body's product at point `t`, read at an index of its block: the product of the rows with the table at
    column `1024·t + q`. -/
private theorem prod_blk (c : Dev nD) (t : Fin cfg0.N) (y : S256x1024.Idx) (p : Fin 256) (o : Fin 4096)
    (hp : p.val = (y 0).val) (ho : o.val = 1024 * t.val + (y 1).val) :
    k0_pay1 (iblk m c 0 t) (iblk m c 1 t) y = Cert.Spec.Kat (rowsV m c) (tabV m c) p o := by
  obtain ⟨a, b, rfl⟩ : ∃ (a : Fin 256) (b : Fin 1024), y = ix2 a b := ⟨y 0, y 1, eq_ix2 y⟩
  obtain rfl : p = a := Fin.ext hp
  refine (pay_apply (iblk m c 0 t) (iblk m c 1 t) p b).trans ?_
  unfold Cert.Spec.Kat
  refine Finset.sum_congr rfl fun i _ => ?_
  rw [rows_blk m c t (ix2 p i), tab_blk m c t i b o ho]

/-- What point `t` writes back is block `t` of the product of the rows with the table. -/
private theorem flushed_eq (c : Dev nD) (t : Fin cfg0.N) :
    (dats m 0 c).flushed 2 t = ((cfg0.win 2).blk t).view.read (Elt Ideal) (Cert.Spec.Knat (rowsV m c) (tabV m c)) := by
  show (cfg0.win 2).cut (grid0.coords t) ((dats m 0 c).after 2 t) = _
  rw [after0_2]
  unfold out0_2
  rw [View.canon_unit_zero hz]
  simp only [View.ld_unit_zero (S := S256x4096) hz, View.ld_unit_zero (S := S4096x1024) hz]
  obtain ⟨-, -, -, -, e0, e1⟩ := idx_facts t
  funext j
  rw [View.read_apply]
  exact prod_blk m c t ((cfg0.win 2).xinj (grid0.coords t) j) ⟨_, idx2_lt0 _⟩ ⟨_, idx2_lt1 _⟩
    (by show win0_2.index t (0 : Fin 2) * 256 + 1 * (j 0).val = (j 0).val; rw [e0]; omega)
    (by show win0_2.index t (1 : Fin 2) * 1024 + 1 * (j 1).val = 1024 * t.val + (j 1).val; rw [e1]; omega)

/-- An index of the result is in point `t`'s block iff each coordinate is in the block's range on its axis. -/
private theorem mem_blk (t : Fin cfg0.N) (i : S256x4096.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v23).slice (win0_2.rect t)).set ↔ _
  rw [View.set_slice_whole, Rect.mem_set_unit]
  exact Iff.rfl

/-- The four column blocks tile the result: column `o` is in block `o / 1024`. -/
private theorem cover (i : S256x4096.Idx) : ∃ t : Fin cfg0.N, (cfg0.win 2).flush t = true ∧ i ∈ ((cfg0.win 2).blk t).view.set := by
  have hi0 : (i 0).val < 256 := (i 0).isLt
  have hi1 : (i 1).val < 4096 := (i 1).isLt
  obtain ⟨t, ht⟩ : ∃ t : Fin cfg0.N, t.val = (i 1).val / 1024 := ⟨⟨(i 1).val / 1024, by rw [show cfg0.N = 4 from N_0]; omega⟩, rfl⟩
  obtain ⟨-, -, -, -, e0, e1⟩ := idx_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; rw [e0]; omega
  | ⟨1, _⟩ => show win0_2.index t (1 : Fin 2) * 1024 ≤ (i 1).val ∧ (i 1).val < win0_2.index t (1 : Fin 2) * 1024 + 1024; rw [e1, ht]; omega

/-- The result array after the region: the product of the rows with the table. -/
private theorem final (c : Dev nD) : (dats m 0 c).arrAt 2 cfg0.N = Cert.Spec.Knat (rowsV m c) (tabV m c) :=
  (dats m 0 c).arrAt_eq_of_cover 2 (Cert.Spec.Knat (rowsV m c) (tabV m c)) (fun t _ => flushed_eq m c t) cover

/-! ## The rows and the table as the region finds them -/

/-- The rows as the region finds them: `x` flattened to 256 rows (the change of format keeps every value). -/
private theorem rowsV_eq (c : Dev nD) :
    rowsV m c = shapeCast S256x4096 (m ((c.tc : Thread nD τ).loc main_arg0)) Facts₀.shapeCasts_S4x64x4096_S256x4096 := by
  show V m c main_v22 = _
  dsimp only [Gen.V, Gen.V0]
  simp only [Gen.hostOps0, Gen.hostOps0_1, Gen.hostOps0_2, List.flatten_cons, List.flatten_nil, List.append_nil, List.cons_append,
    List.nil_append]
  after_results
  rfl

set_option maxHeartbeats 4000000 in
/-- The table as the region finds it: the weights scattered at the program's index pairs (the change of format keeps
    every value). -/
private theorem tabV_eq (c : Dev nD) :
    tabV m c = Cert.KernelIdx.table (m ((c.tc : Thread nD τ).loc main_arg1)) (m ((c.tc : Thread nD τ).loc main_arg2)) := by
  show (V m c main_v21 : S4096x4096.Idx → EReal) = _
  dsimp only [V, V0]
  simp only [hostOps0, hostOps0_1, hostOps0_2, List.flatten_cons, List.flatten_nil, List.append_nil, List.cons_append,
    List.nil_append]
  after_results
  rfl

/-! ## The reshape after the region, and the run -/

/-- The result buffer after the last host operation: the product reshaped to 4 × 64 × 4096. -/
private theorem tail_eq (c : Dev nD) :
    Pipeline.afterTail₀ cfgs (dats m) 0 (V0 m) [hostOps1] c main_v24
      = shapeCast S4x64x4096 (Cert.Spec.Knat (rowsV m c) (tabV m c)) Facts₀.shapeCasts_S256x4096_S4x64x4096 := by
  unfold Pipeline.afterTail₀
  show StableHlo.after hostOps1 _ (Proc.devRef .tc main_v24) = _
  after_results
  have e : Pipeline.withArrays (cfgs 0).spec c (V0 m c) (fun w => (dats m 0 c).arrAt w (cfgs 0).N) (Proc.devRef .tc main_v23)
      = Cert.Spec.Knat (rowsV m c) (tabV m c) :=
    (Pipeline.withArrays_arr spec0 launch0.win.arr_inj c _ _ 2).trans (final m c)
  rw [e]
  rfl

end Blocks

/-- Every weakly fair execution of the kernel's program ends with its result at the reshaped product of the rows of
    `x` with the table of weights, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24)
        = shapeCast S4x64x4096 (Cert.Spec.Knat
            (shapeCast S256x4096 (m ((c.tc : Thread nD τ).loc main_arg0)) Facts₀.shapeCasts_S4x64x4096_S256x4096)
            (Cert.KernelIdx.table (m ((c.tc : Thread nD τ).loc main_arg1)) (m ((c.tc : Thread nD τ).loc main_arg2))))
            Facts₀.shapeCasts_S256x4096_S4x64x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v24 (Pipeline.mem_restRefs_of main_v24 (by decide) (by decide))).trans
        ((tail_eq m c).trans (by rw [rowsV_eq m c, tabV_eq m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelRun

end
-- ==== Proof.LibScatterRead.lean ====
/-
  An accumulating scatter and a column gather read at an index.

  `stablehlo.scatter` with an `add` body is, over the extended reals, each operand element plus the sum of the
  updates that land on it.  For two layouts of the scatter this file names which updates those are, so that the
  sum runs over the rows `k` of the index list:
  * scalar updates at index PAIRS (`zeros[A, B].at[i, j].add(v)`): update `k` lands on `(a, b)` exactly when
    `idx[k, 0] = a` and `idx[k, 1] = b` as signed integers;
  * ROW updates at single indices (`segment_sum` of rows): row `k` of the updates lands on row `a` exactly when
    `idx[k, 0] = a`, column for column.
  An index outside the operand equals no `a`, so the update is dropped.  And `stablehlo.gather` of whole columns
  (`x[:, idx]`) reads column `idx[k, 0]`, signed and clamped into the operand.
-/
import Idealize.ShloMosaic.Lib.ValueIdx
import Idealize.ShloMosaic.Lib.ValueIdxRank1

noncomputable section

open scoped BigOperators

namespace ScatterRead

open Idealize.ShloMosaic Idealize.ShloMosaic.ValueIdx

/-- Scalar updates `[N]` scattered at index pairs `[N, 2]` into an operand `[A, B]`. -/
abbrev pairDims (A B N : Nat) (wf : ScatterDims.WF (⟨2, ![A, B]⟩ : Shape) ⟨2, ![N, 2]⟩ ⟨1, ![N]⟩ [] [0, 1] [0, 1] 1) :
    ScatterDims ⟨2, ![A, B]⟩ ⟨2, ![N, 2]⟩ ⟨1, ![N]⟩ where
  updateWindowDims := []
  insertedWindowDims := [0, 1]
  scatterDimsToOperandDims := [0, 1]
  indexVectorDim := 1
  wf := wf

/-- Row updates `[N, B]` scattered at single indices `[N, 1]` into the rows of an operand `[A, B]`. -/
abbrev rowDims (A B N : Nat) (wf : ScatterDims.WF (⟨2, ![A, B]⟩ : Shape) ⟨2, ![N, 1]⟩ ⟨2, ![N, B]⟩ [1] [0] [0] 1) :
    ScatterDims ⟨2, ![A, B]⟩ ⟨2, ![N, 1]⟩ ⟨2, ![N, B]⟩ where
  updateWindowDims := [1]
  insertedWindowDims := [0]
  scatterDimsToOperandDims := [0]
  indexVectorDim := 1
  wf := wf

/-- Whole columns of an operand `[R, C]` gathered at start indices `[N, 1]` into `[R, N]`. -/
abbrev colDims (R C N : Nat) (wf : GatherDims.WF (⟨2, ![R, C]⟩ : Shape) ⟨2, ![N, 1]⟩ ⟨2, ![R, N]⟩ [0] [1] [] [1] [] 1 ![R, 1]) :
    GatherDims ⟨2, ![R, C]⟩ ⟨2, ![N, 1]⟩ ⟨2, ![R, N]⟩ where
  offsetDims := [0]
  collapsedSliceDims := [1]
  operandBatchingDims := []
  startIndicesBatchingDims := []
  startIndexMap := [1]
  indexVectorDim := 1
  sliceSizes := ![R, 1]
  wf := wf

/-- An update lands on `i` exactly when, on every operand axis, its signed start plus its window coordinate is
    `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      refine Fin.ext ?_
      have := hi a
      simp only
      omega
  · rename_i h
    constructor
    · intro hi; cases hi
    · intro hi
      exfalso
      apply h
      intro a
      have := hi a
      have := (i a).isLt
      omega

/-! ### The pair scatter's start and window coordinates -/

private theorem pair_window {A B N : Nat} (wf) (j : (⟨1, ![N]⟩ : Shape).Idx) (a : Fin 2) :
    (pairDims A B N wf).window j a = 0 := by
  unfold ScatterDims.window
  rw [dif_neg]
  simp only [ScatterDims.sKept, Shape.kept, List.mem_filter, List.mem_finRange, true_and, decide_not, Bool.not_eq_true', decide_eq_false_iff_not, not_not]
  match a with
  | ⟨0, _⟩ => exact List.mem_cons_self
  | ⟨1, _⟩ => exact List.mem_cons_of_mem _ List.mem_cons_self

private theorem pair_start0 {A B N w : Nat} (wf) (j : (⟨1, ![N]⟩ : Shape).Idx) (idx : IVec ⟨2, ![N, 2]⟩ w) :
    (pairDims A B N wf).start j idx 0 = (idx (ix2 (j 0) 0)).toInt := by
  unfold ScatterDims.start
  rw [dif_pos (show (0 : Fin 2) ∈ (pairDims A B N wf).scatterDimsToOperandDims from List.mem_cons_self)]
  congr 2
  funext b; refine Fin.ext ?_
  match b with
  | ⟨0, _⟩ => rfl
  | ⟨1, _⟩ => rfl

private theorem pair_start1 {A B N w : Nat} (wf) (j : (⟨1, ![N]⟩ : Shape).Idx) (idx : IVec ⟨2, ![N, 2]⟩ w) :
    (pairDims A B N wf).start j idx 1 = (idx (ix2 (j 0) 1)).toInt := by
  unfold ScatterDims.start
  rw [dif_pos (show (1 : Fin 2) ∈ (pairDims A B N wf).scatterDimsToOperandDims from List.mem_cons_of_mem _ List.mem_cons_self)]
  congr 2
  funext b; refine Fin.ext ?_
  match b with
  | ⟨0, _⟩ => rfl
  | ⟨1, _⟩ => rfl

/-- THE PAIR SCATTER READ AT `(a, b)`: the operand there plus the updates whose index pair is `(a, b)`. -/
theorem scatterAdd_pairs_apply {A B N w : Nat}
    (wf : ScatterDims.WF (⟨2, ![A, B]⟩ : Shape) ⟨2, ![N, 2]⟩ ⟨1, ![N]⟩ [] [0, 1] [0, 1] 1)
    (x : (⟨2, ![A, B]⟩ : Shape).Idx → EReal) (idx : IVec ⟨2, ![N, 2]⟩ w) (upd : (⟨1, ![N]⟩ : Shape).Idx → EReal)
    (a : Fin A) (b : Fin B) :
    Ideal.hostScatterAdd (pairDims A B N wf) x idx upd (ix2 a b)
      = x (ix2 a b) + ∑ k ∈ Finset.univ.filter (fun k : Fin N =>
          (idx (ix2 k 0)).toInt = (a.val : Int) ∧ (idx (ix2 k 1)).toInt = (b.val : Int)), upd (ix1 k) := by

  unfold Ideal.hostScatterAdd
  congr 1
  rw [Finset.sum_filter, Finset.sum_filter, ← Equiv.sum_comp (idxEquiv1 (n := N)).symm]
  refine Finset.sum_congr rfl fun k _ => ?_
  have hiff : (pairDims A B N wf).resultIdx? (idxEquiv1.symm k) idx = some (ix2 a b)
      ↔ (idx (ix2 k 0)).toInt = (a.val : Int) ∧ (idx (ix2 k 1)).toInt = (b.val : Int) := by
    rw [resultIdx?_eq_some_iff, Fin.forall_fin_two, pair_start0, pair_start1, pair_window, pair_window]
    simp only [Nat.cast_zero, add_zero]
    rfl
  simp only [hiff]
  rfl

/-! ### The row scatter's start and window coordinates -/

private theorem row_window0 {A B N : Nat} (wf) (j : (⟨2, ![N, B]⟩ : Shape).Idx) :
    (rowDims A B N wf).window j 0 = 0 := by
  unfold ScatterDims.window
  rw [dif_neg]
  simp only [ScatterDims.sKept, Shape.kept, List.mem_filter, List.mem_finRange, true_and, decide_not, Bool.not_eq_true', decide_eq_false_iff_not, not_not]
  exact List.mem_cons_self

private theorem row_window1 {A B N : Nat} (wf) (j : (⟨2, ![N, B]⟩ : Shape).Idx) :
    (rowDims A B N wf).window j 1 = (j 1).val := by
  rfl

private theorem row_start0 {A B N w : Nat} (wf) (j : (⟨2, ![N, B]⟩ : Shape).Idx) (idx : IVec ⟨2, ![N, 1]⟩ w) :
    (rowDims A B N wf).start j idx 0 = (idx (ix2 (j 0) 0)).toInt := by
  unfold ScatterDims.start
  rw [dif_pos (show (0 : Fin 2) ∈ (rowDims A B N wf).scatterDimsToOperandDims from List.mem_cons_self)]
  congr 2
  funext b; refine Fin.ext ?_
  match b with
  | ⟨0, _⟩ => rfl
  | ⟨1, _⟩ => rfl

private theorem row_start1 {A B N w : Nat} (wf) (j : (⟨2, ![N, B]⟩ : Shape).Idx) (idx : IVec ⟨2, ![N, 1]⟩ w) :
    (rowDims A B N wf).start j idx 1 = 0 := by
  unfold ScatterDims.start
  rw [dif_neg]
  intro h
  exact absurd (congrArg Fin.val (List.mem_singleton.mp h)) Nat.one_ne_zero

/-- THE ROW SCATTER READ AT `(a, b)`: the operand there plus column `b` of the update rows whose index is `a`. -/
theorem scatterAdd_rows_apply {A B N w : Nat}
    (wf : ScatterDims.WF (⟨2, ![A, B]⟩ : Shape) ⟨2, ![N, 1]⟩ ⟨2, ![N, B]⟩ [1] [0] [0] 1)
    (x : (⟨2, ![A, B]⟩ : Shape).Idx → EReal) (idx : IVec ⟨2, ![N, 1]⟩ w) (upd : (⟨2, ![N, B]⟩ : Shape).Idx → EReal)
    (a : Fin A) (b : Fin B) :
    Ideal.hostScatterAdd (rowDims A B N wf) x idx upd (ix2 a b)
      = x (ix2 a b) + ∑ k ∈ Finset.univ.filter (fun k : Fin N => (idx (ix2 k 0)).toInt = (a.val : Int)), upd (ix2 k b) := by

  unfold Ideal.hostScatterAdd
  congr 1
  rw [Finset.sum_filter, Finset.sum_filter, sum_idx2]
  refine Finset.sum_congr rfl fun k _ => ?_
  have hiff : ∀ c : Fin B, (rowDims A B N wf).resultIdx? (ix2 k c) idx = some (ix2 a b)
      ↔ (idx (ix2 k 0)).toInt = (a.val : Int) ∧ c = b := by
    intro c
    rw [resultIdx?_eq_some_iff, Fin.forall_fin_two, row_start0, row_start1, row_window0, row_window1]
    simp only [Nat.cast_zero, add_zero, zero_add]
    show _ = (a.val : Int) ∧ ((c.val : Nat) : Int) = (b.val : Int) ↔ _
    rw [Nat.cast_inj, Fin.val_inj]
    rfl
  simp only [hiff]
  by_cases hP : (idx (ix2 k 0)).toInt = (a.val : Int)
  · simp only [hP, true_and, if_true]
    rw [Finset.sum_ite_eq' Finset.univ b]
    simp
  · simp [hP]

/-- THE COLUMN GATHER READ AT `(r, k)`: row `r` of the operand at column `idx[k, 0]`, signed and clamped into
    `[0, C − 1]`. -/
theorem gather_cols_apply {α : Type} {R C N w : Nat} (hC : 0 < C)
    (wf : GatherDims.WF (⟨2, ![R, C]⟩ : Shape) ⟨2, ![N, 1]⟩ ⟨2, ![R, N]⟩ [0] [1] [] [1] [] 1 ![R, 1])
    (x : (⟨2, ![R, C]⟩ : Shape).Idx → α) (idx : IVec ⟨2, ![N, 1]⟩ w) (r : Fin R) (k : Fin N) :
    Host.gather (colDims R C N wf) x idx (ix2 r k)
      = x (ix2 r ⟨min (idx (ix2 k 0)).toInt.toNat (C - 1), by omega⟩) := by

  unfold Host.gather
  congr 1
  funext a
  refine Fin.ext ?_
  match a with
  | ⟨0, _⟩ =>
    show (colDims R C N wf).start (ix2 r k) idx 0 + (colDims R C N wf).batchCoord (ix2 r k) 0
      + (colDims R C N wf).offCoord (ix2 r k) 0 = r.val
    have hs : (colDims R C N wf).start (ix2 r k) idx 0 = 0 := by
      unfold GatherDims.start
      rw [dif_neg]
      intro h
      exact absurd (congrArg Fin.val (List.mem_singleton.mp h)) (Nat.one_ne_zero ∘ Eq.symm)
    have hk : (0 : Fin 2) ∈ (colDims R C N wf).sKept :=
      (GatherDims.mem_sKept _ _).mpr
        ⟨fun h => absurd (congrArg Fin.val (List.mem_singleton.mp h)) (Nat.one_ne_zero ∘ Eq.symm), List.not_mem_nil⟩
    rw [hs, GatherDims.batchCoord_eq_zero _ _ _ List.not_mem_nil]
    unfold GatherDims.offCoord
    simp only [dif_pos hk, Nat.zero_add]
    rfl
  | ⟨1, _⟩ =>
    show (colDims R C N wf).start (ix2 r k) idx 1 + (colDims R C N wf).batchCoord (ix2 r k) 1
      + (colDims R C N wf).offCoord (ix2 r k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R C N wf).startIndexMap from List.mem_singleton.mpr rfl)]
    have hsi : (colDims R C N wf).siIdx (ix2 r k) ⟨List.idxOf (1 : Fin 2) (colDims R C N wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl

end ScatterRead

end
-- ==== Proof.KernelAlg.lean ====
/-
  The rows times the scattered table is the specification's sum.

  The table built by scatter-adding `w[k]` at `(in(k), out(k))` into zeros has
  `tab[i, o] = Σ_{k : in(k) = i ∧ out(k) = o} w[k]`, so

      Σ_i rows[r, i] · tab[i, o] = Σ_i Σ_{k : in(k) = i ∧ out(k) = o} rows[r, i] · w[k] = Σ_{k : out(k) = o} rows[r, in(k)] · w[k].

  The first step moves a factor across a sum, which the extended reals allow only for finite values: both `rows`
  and `w` are real-valued, and the identity is the reals' (`Finset.mul_sum`, then the two sums exchanged and the sum
  over `i` collapsed at `i = in(k)`).
-/
import proofs.«414872_j17222818857169_3_alg».proof.Proof.Spec
import proofs.«414872_j17222818857169_3_alg».proof.Proof.LibScatterRead

noncomputable section

open scoped BigOperators

namespace Cert.KernelAlg

open Idealize.ShloMosaic Idealize.ShloMosaic.ValueIdx Cert.Spec

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: a weighted sum of the fibres' sums is the sum over the selected entries, each weighted at its
    own fibre. -/
theorem real_fibre_sum {K I : Type} [Fintype K] [Fintype I] [DecidableEq I] (f : I → ℝ) (g : K → ℝ) (a : K → I)
    (P : K → Prop) [DecidablePred P] :
    ∑ i, f i * ∑ k ∈ Finset.univ.filter (fun k => a k = i ∧ P k), g k = ∑ k ∈ Finset.univ.filter P, f (a k) * g k := by
  simp only [Finset.mul_sum, Finset.sum_filter]
  rw [Finset.sum_comm]
  refine Finset.sum_congr rfl fun k _ => ?_
  by_cases hP : P k
  · simp [hP]
  · simp [hP]

/-- The same over the extended reals, for real-valued `f` and `g`. -/
theorem fibre_sum {K I : Type} [Fintype K] [Fintype I] [DecidableEq I] (f : I → EReal) (g : K → EReal) (a : K → I)
    (P : K → Prop) [DecidablePred P] (hf : ∀ i, ∃ x : ℝ, f i = (x : EReal)) (hg : ∀ k, ∃ x : ℝ, g k = (x : EReal)) :
    ∑ i, f i * ∑ k ∈ Finset.univ.filter (fun k => a k = i ∧ P k), g k = ∑ k ∈ Finset.univ.filter P, f (a k) * g k := by
  choose fr hfr using hf
  choose gr hgr using hg
  simp only [hfr, hgr, ← coe_sum, ← EReal.coe_mul]
  rw [real_fibre_sum]

/-- THE KERNEL'S SIDE: the rows times the table scattered from zeros at index pairs that are the specification's
    input and output columns is the specification's array. -/
theorem rows_mul_table (rows : SRows.Idx → EReal) (coords : IVec SPairs 32) (w : SWts.Idx → EReal)
    (hrows : ∀ i, ∃ x : ℝ, rows i = (x : EReal)) (hw : ∀ i, ∃ x : ℝ, w i = (x : EReal))
    (idx : IVec SPairs 32)
    (hin : ∀ k : Fin 262144, (idx (ix2 k 0)).toInt = ((inCol coords k).val : Int))
    (hout : ∀ k : Fin 262144, (idx (ix2 k 1)).toInt = outCol coords k)
    (wf : ScatterDims.WF STab SPairs SWts [] [0, 1] [0, 1] 1) (z : STab.Idx → EReal) (hz : ∀ i, z i = 0) :
    Knat rows (Ideal.hostScatterAdd (ScatterRead.pairDims 4096 4096 262144 wf) z idx w) = Y rows coords w := by
  funext j
  obtain ⟨r, o, rfl⟩ : ∃ (r : Fin 256) (o : Fin 4096), j = ix2 r o := ⟨j 0, j 1, eq_ix2 j⟩
  show Kat rows _ r o = Yat rows coords w r o
  unfold Kat Yat
  simp only [ScatterRead.scatterAdd_pairs_apply, hz, zero_add, hin, hout]
  have hfil : ∀ i : Fin 4096, Finset.univ.filter (fun k : Fin 262144 => ((inCol coords k).val : Int) = (i.val : Int) ∧ outCol coords k = (o.val : Int))
      = Finset.univ.filter (fun k : Fin 262144 => inCol coords k = i ∧ outCol coords k = (o.val : Int)) := by
    intro i
    refine Finset.filter_congr fun k _ => ?_
    rw [Nat.cast_inj, Fin.val_inj]
  simp only [hfil]
  exact fibre_sum (fun i => rows (ix2 r i)) (fun k => w (ix1 k)) (inCol coords) (fun k => outCol coords k = (o.val : Int))
    (fun i => hrows _) (fun k => hw _)

end Cert.KernelAlg

end
-- ==== Proof.RefValue.lean ====
/-
  The reference's result array, read index by index: before the final reshape it is the specification's `y`.

  The reference gathers column `in(k)` of the rows for every entry `k` (a negative index wrapped by `+4096`, the
  gather clamping into `[0, 4095]`), scales it by `w[k]`, and segment-sums the 262144 scaled columns by
  `coords[k, 0]` into 4096 output columns (an id outside `[0, 4096)` dropped).  For non-negative `coords` nothing
  wraps, and output column `o` of row `r` is the sum over the entries with `coords[k, 0] = o` of
  `rows[r, in(k)] · w[k]`.
-/
import proofs.«414872_j17222818857169_3_alg».proof.Proof.Gen.ReferenceIdeal.Run
import proofs.«414872_j17222818857169_3_alg».proof.Proof.Gen.ReferenceIdeal.Read
import proofs.«414872_j17222818857169_3_alg».proof.Proof.Spec
import proofs.«414872_j17222818857169_3_alg».proof.Proof.LibScatterRead
import Idealize.ShloMosaic.PureOps.Ideal.Laws

noncomputable section

namespace Cert.RefValue

open Cert.ReferenceIdeal Cert.ReferenceIdeal.Read Idealize.ShloMosaic Idealize.ShloMosaic.ValueIdx

/-- The program's scatter record is the row scatter's dimension numbers at 4096 × 256 rows and 262144 updates. -/
private theorem scatter_eq :
    scatter_S4096x256_S262144x1_S262144x256_1_0_0_1
      = ScatterRead.rowDims 4096 256 262144 Facts₀.scatter_S4096x256_S262144x1_S262144x256_1_0_0_1_wf := rfl

/-- The program's gather record is the column gather's dimension numbers at 256 × 4096 and 262144 start indices. -/
private theorem gather_eq :
    gather_S256x4096_S262144x1_S256x262144_0_1_n_n_1_1_2561
      = ScatterRead.colDims 256 4096 262144 Facts₀.gather_S256x4096_S262144x1_S256x262144_0_1_n_n_1_1_2561_wf := rfl

/-- A signed comparison `a < 0` of a non-negative word is the bit `0`. -/
private theorem slt_zero_of_nonneg (a : BitVec 32) (h : 0 ≤ a.toInt) : IntOp.cmpi .slt a 0#32 = 0#1 := by
  have hs : a.slt 0#32 = false := by
    rw [BitVec.slt]
    simp only [BitVec.toInt_zero, decide_eq_false_iff_not, not_lt]
    exact h
  simp only [IntOp.cmpi, hs]
  rfl

/-- The segment ids: `coords[k, 0]`. -/
private theorem v17_at (x1 : IVec S262144x2 32) (k : Fin 262144) :
    val_main_v17 (F := Ideal) x1 (ix2 k 0) = x1 (ix2 k 0) := by
  rw [val_main_v17_apply, val_main_v2_apply, val_main_v1_apply]
  refine congrArg x1 ?_
  funext a
  match a with
  | ⟨0, _⟩ => exact Fin.ext (Nat.div_one _)
  | ⟨1, _⟩ => rfl

/-- The input columns before the wrap: `coords[k, 1]`. -/
private theorem v4_at (x1 : IVec S262144x2 32) (k : Fin 262144) :
    val_main_v4 (F := Ideal) x1 (ix1 k) = x1 (ix2 k 1) := by
  rw [val_main_v4_apply, val_main_v3_apply]
  refine congrArg x1 ?_
  funext a
  match a with
  | ⟨0, _⟩ => exact Fin.ext (Nat.div_one _)
  | ⟨1, _⟩ => rfl

/-- A non-negative input column is not wrapped. -/
private theorem v9_at (x1 : IVec S262144x2 32) (hnn : ∀ i, 0 ≤ (x1 i).toInt) (k : Fin 262144) :
    val_main_v9 (F := Ideal) x1 (ix1 k) = x1 (ix2 k 1) := by
  rw [val_main_v9_apply, val_main_v6_apply, v4_at, val_main_v5_apply, val_main_c_apply,
    slt_zero_of_nonneg _ (hnn _), select_zero]

/-- The gather's start indices: `coords[k, 1]`. -/
private theorem v10_at (x1 : IVec S262144x2 32) (hnn : ∀ i, 0 ≤ (x1 i).toInt) (k : Fin 262144) :
    val_main_v10 (F := Ideal) x1 (ix2 k 0) = x1 (ix2 k 1) := by
  rw [val_main_v10_apply]
  have hi : idx_main_v10 (ix2 k (0 : Fin 1)) = ix1 k := by
    funext a
    match a with
    | ⟨0, _⟩ => rfl
  rw [hi, v9_at x1 hnn]

/-- The gathered column of entry `k`, row `r`: the rows at the clamped input column. -/
private theorem v11_at (x0 : FVec Ideal S4x64x4096 .f32) (x1 : IVec S262144x2 32) (hnn : ∀ i, 0 ≤ (x1 i).toInt)
    (r : Fin 256) (k : Fin 262144) :
    val_main_v11 (F := Ideal) x0 x1 (ix2 r k) = val_main_v0 (F := Ideal) x0 (ix2 r (Cert.Spec.inCol x1 k)) := by
  unfold val_main_v11
  rw [gather_eq, ScatterRead.gather_cols_apply (by decide)]
  refine congrArg (val_main_v0 (F := Ideal) x0) ?_
  have h := v10_at x1 hnn k
  funext a
  match a with
  | ⟨0, _⟩ => rfl
  | ⟨1, _⟩ =>
    refine Fin.ext ?_
    show min (val_main_v10 (F := Ideal) x1 (ix2 k 0)).toInt.toNat (4096 - 1) = min (x1 (ix2 k 1)).toInt.toNat 4095
    rw [h]

/-- The weights broadcast along the rows: `w[k]`. -/
private theorem v13_at (x2 : FVec Ideal S262144 .f32) (r : Fin 256) (k : Fin 262144) :
    val_main_v13 (F := Ideal) x2 (ix2 r k) = x2 (ix1 k) := by
  rw [val_main_v13_apply, val_main_v12_apply]
  refine congrArg x2 ?_
  funext a
  match a with
  | ⟨0, _⟩ => rfl

/-- The scaled column of entry `k`, transposed: `rows[r, in(k)] · w[k]`. -/
private theorem v15_at (x0 : FVec Ideal S4x64x4096 .f32) (x1 : IVec S262144x2 32) (x2 : FVec Ideal S262144 .f32)
    (hnn : ∀ i, 0 ≤ (x1 i).toInt) (k : Fin 262144) (r : Fin 256) :
    val_main_v15 (F := Ideal) x0 x1 x2 (ix2 k r)
      = val_main_v0 (F := Ideal) x0 (ix2 r (Cert.Spec.inCol x1 k)) * x2 (ix1 k) := by
  rw [val_main_v15_apply]
  have hi : idx_main_v15 (ix2 k r) = ix2 r k := by
    funext a
    match a with
    | ⟨0, _⟩ => rfl
    | ⟨1, _⟩ => rfl
  rw [hi, val_main_v14_apply, v11_at x0 x1 hnn, v13_at]
  rfl

/-- The accumulator starts at zero. -/
private theorem v16_at (i : S4096x256.Idx) : val_main_v16 (F := Ideal) i = (0 : EReal) := by
  rw [val_main_v16_apply, val_main_cst_apply]
  exact Ideal.ofBits_zero_f32

/-- For non-negative `coords`, the reference's 256 × 4096 array before its final reshape is the specification's. -/
theorem ref_eq (x0 : FVec Ideal S4x64x4096 .f32) (x1 : IVec S262144x2 32) (x2 : FVec Ideal S262144 .f32)
    (hnn : ∀ i, 0 ≤ (x1 i).toInt) :
    val_main_v19 (F := Ideal) x0 x1 x2 = Cert.Spec.Y (val_main_v0 (F := Ideal) x0) x1 x2 := by
  funext j
  obtain ⟨r, o, rfl⟩ : ∃ (r : Fin 256) (o : Fin 4096), j = ix2 r o := ⟨j 0, j 1, eq_ix2 j⟩
  rw [val_main_v19_apply]
  have hi : idx_main_v19 (ix2 r o) = ix2 o r := by
    funext a
    match a with
    | ⟨0, _⟩ => rfl
    | ⟨1, _⟩ => rfl
  rw [hi]
  show val_main_v18 (F := Ideal) x0 x1 x2 (ix2 o r) = Cert.Spec.Yat (val_main_v0 (F := Ideal) x0) x1 x2 r o
  unfold val_main_v18
  show Ideal.hostScatterAdd scatter_S4096x256_S262144x1_S262144x256_1_0_0_1 (val_main_v16 (F := Ideal))
      (val_main_v17 (F := Ideal) x1) (val_main_v15 (F := Ideal) x0 x1 x2) (ix2 o r) = _
  rw [scatter_eq, ScatterRead.scatterAdd_rows_apply, v16_at, zero_add]
  unfold Cert.Spec.Yat
  refine Finset.sum_congr ?_ ?_
  · ext k
    simp only [Finset.mem_filter, Finset.mem_univ, true_and, v17_at]
    exact Iff.rfl
  · intro k _
    exact v15_at x0 x1 x2 hnn k r

end Cert.RefValue

end
-- ==== Proof.PreDecode.lean ====
/-
  The precondition read back: every entry of `x` and of `w` is a real number, and every entry of `coords` is
  non-negative as a signed integer.

  The precondition is the conjunction of three `all`s: `|x| < +∞`, `|w| < +∞` and `coords ≥ 0`.  Over the extended
  reals `max v (−v) < ⊤` excludes both infinities, which leaves the reals.
-/
import proofs.«414872_j17222818857169_3_alg».proof.Proof.Gen.Pre_finite_inputs
import Idealize.ShloMosaic.Lib.ReduceAll
import Idealize.ShloMosaic.Lib.ValueIdx
import Idealize.ShloMosaic.PureOps.Ideal.Laws

noncomputable section

namespace Cert.PreDecode

open Cert.Pre_finite_inputs Idealize.ShloMosaic Idealize.ShloMosaic.ValueIdx

instance : Subsingleton S_.Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- An extended real whose absolute value is below `+∞` is a real. -/
theorem real_of_abs_lt_inf (v : EReal) (h : Ideal.cmp .olt (max v (-v)) (Ideal.ofBits .f32 0x7F800000#32) = 1#1) :
    ∃ r : ℝ, v = (r : EReal) := by
  rw [ofBits_inf] at h
  have hlt : max v (-v) < ⊤ := by
    by_contra hn
    simp [Ideal.cmp, hn] at h
  rw [max_lt_iff] at hlt
  induction v using EReal.rec with
  | bot => exact absurd hlt.2 (by simp)
  | coe r => exact ⟨r, rfl⟩
  | top => exact absurd hlt.1 (by simp)

/-- A word at which the signed comparison `≥ 0` holds has a non-negative signed value. -/
theorem toInt_nonneg_of_sge (v : BitVec 32) (h : IntOp.cmpi .sge v 0#32 = 1#1) : 0 ≤ v.toInt := by
  have hb : BitVec.ofBool ((0#32 : BitVec 32).sle v) = 1#1 := h
  have : (0#32 : BitVec 32).sle v = true := by
    cases hsle : (0#32 : BitVec 32).sle v
    · rw [hsle] at hb; exact absurd hb (by decide)
    · rfl
  simpa [BitVec.sle] using this

/-- THE PRECONDITION, DECODED. -/
theorem decode (x0 : FVec Ideal S4x64x4096 .f32) (x1 : IVec S262144x2 32) (x2 : FVec Ideal S262144 .f32)
    (h : fn (F := Ideal) x0 x1 x2 = fun _ => 1#1) :
    (∀ i, ∃ r : ℝ, x0 i = (r : EReal)) ∧ (∀ i, 0 ≤ (x1 i).toInt) ∧ (∀ i, ∃ r : ℝ, x2 i = (r : EReal)) := by
  have h0 := congrFun h ix0
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt_inf (x0 i) (Host.reduce_andi_all _ _ _ _ ix0 h1 i)
  · exact toInt_nonneg_of_sge (x1 i) (Host.reduce_andi_all _ _ _ _ ix0 h3 i)
  · exact real_of_abs_lt_inf (x2 i) (Host.reduce_andi_all _ _ _ _ ix0 h2 i)

end Cert.PreDecode

end
-- ==== Proof.lean ====
/-
  The kernel computes a sparse coordinate-weighted linear map as a dense product, the reference as a gather and a
  segment sum; over the extended reals, on finite inputs with non-negative coordinates, they are one function:

      y[r, o] = Σ_{k : coords[k, 0] = o} rows[r, in(k)] · w[k],   in(k) = coords[k, 1] clamped into [0, 4095].

  The kernel's program first builds the 4096 × 4096 table `tab[i, o] = Σ_{k : in(k) = i ∧ coords[k, 0] = o} w[k]` on
  the host (a scatter-add into zeros) and then multiplies the 256 rows by it in four column blocks; its result is
  `Σ_i rows[r, i] · tab[i, o]`, which is the sum above once the factor `rows[r, i]` is moved inside the inner sum
  (finite values) and the sum over `i` is collapsed at `i = in(k)`.  The reference gathers column `in(k)` for each
  entry, scales it by `w[k]` and adds the scaled columns by output column.  Where a coordinate is negative the two
  programs differ (the kernel's scatter wraps a negative index, the reference's segment sum drops it; the kernel
  clips a negative input column to 0, the reference's gather wraps it), so the precondition asks `coords ≥ 0`; at
  a coordinate of 4096 or more they agree (both clamp the input column to 4095 and both drop the entry's output).

  The three frames are the generated ones (the reference's is its run with the result dropped); the idealized kernel
  is the kernel's own text read over the extended reals, so nothing is owed for `preserves`.
-/
import proofs.«414872_j17222818857169_3_alg».proof.Defs
import proofs.«414872_j17222818857169_3_alg».proof.Proof.Gen.Kernel.Frame
import proofs.«414872_j17222818857169_3_alg».proof.Proof.Gen.KernelIdeal.Frame
import proofs.«414872_j17222818857169_3_alg».proof.Proof.Gen.ReferenceIdeal.Run
import proofs.«414872_j17222818857169_3_alg».proof.Proof.Gen.ReferenceIdeal.Read
import proofs.«414872_j17222818857169_3_alg».proof.Proof.Gen.Pre_finite_inputs
import proofs.«414872_j17222818857169_3_alg».proof.Proof.Spec
import proofs.«414872_j17222818857169_3_alg».proof.Proof.KernelIdx
import proofs.«414872_j17222818857169_3_alg».proof.Proof.KernelRun
import proofs.«414872_j17222818857169_3_alg».proof.Proof.KernelAlg
import proofs.«414872_j17222818857169_3_alg».proof.Proof.RefValue
import proofs.«414872_j17222818857169_3_alg».proof.Proof.PreDecode

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The table the kernel's program scatters is the pair scatter of the weights into zeros. -/
theorem table_eq (coords : IVec Cert.KernelIdeal.S262144x2 32) (w : FVec Ideal Cert.KernelIdeal.S262144 .f32) :
    Cert.KernelIdx.table coords w
      = Ideal.hostScatterAdd (ScatterRead.pairDims 4096 4096 262144 Cert.KernelIdeal.Facts₀.scatter_S4096x4096_S262144x2_S262144_n_01_01_1_wf)
          (broadcastInDim Cert.KernelIdeal.S4096x4096 ![] Cert.KernelIdeal.Facts₀.bcast_S_S4096x4096 (constant (F := Ideal) Cert.KernelIdeal.S_ .f32 0x00000000#32))
          (Cert.KernelIdx.scIdx coords) w := rfl

/-- Both programs end at the reshaped specification array. -/
theorem algebraic : Cert.algebraic_KernelIdeal_ReferenceIdeal := by
  intro m ρ m' ρ' hpre hagree
  refine ⟨fun c => shapeCast Cert.KernelIdeal.S4x64x4096
      (Cert.Spec.Y (shapeCast Cert.KernelIdeal.S256x4096 (m ((c.tc : Thread Cert.KernelIdeal.nD Cert.KernelIdeal.τ).loc Cert.KernelIdeal.main_arg0)) Cert.KernelIdeal.Facts₀.shapeCasts_S4x64x4096_S256x4096)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      Cert.KernelIdeal.Facts₀.shapeCasts_S256x4096_S4x64x4096, ?_, ?_⟩
  · refine (θ_run Cert.KernelIdeal.defs _ _).mono (fun r h c => ⟨(h c).1.trans ?_, (h c).2⟩) (Cert.KernelRun.run m ρ)
    obtain ⟨hx, hc, hw⟩ := Cert.PreDecode.decode _ _ _ (hpre c)
    have key := Cert.KernelAlg.rows_mul_table
      (shapeCast Cert.KernelIdeal.S256x4096 (m ((c.tc : Thread Cert.KernelIdeal.nD Cert.KernelIdeal.τ).loc Cert.KernelIdeal.main_arg0)) Cert.KernelIdeal.Facts₀.shapeCasts_S4x64x4096_S256x4096)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (fun i => hx _) (fun i => hw _)
      (Cert.KernelIdx.scIdx (m ((c.tc : Thread Cert.KernelIdeal.nD Cert.KernelIdeal.τ).loc Cert.KernelIdeal.main_arg1)))
      (Cert.KernelIdx.scIdx_in _ hc) (Cert.KernelIdx.scIdx_out _ hc)
      Cert.KernelIdeal.Facts₀.scatter_S4096x4096_S262144x2_S262144_n_01_01_1_wf
      (broadcastInDim Cert.KernelIdeal.S4096x4096 ![] Cert.KernelIdeal.Facts₀.bcast_S_S4096x4096 (constant (F := Ideal) Cert.KernelIdeal.S_ .f32 0x00000000#32))
      (fun i => Ideal.ofBits_zero_f32)
    rw [table_eq, key]
  · refine (θ_run Cert.ReferenceIdeal.defs _ _).mono (fun r h c => ⟨(h c).1.trans ?_, (h c).2⟩)
      (Cert.ReferenceIdeal.Value.run (F := Ideal) m' ρ')
    obtain ⟨hx, hc, hw⟩ := Cert.PreDecode.decode _ _ _ (hpre c)
    rw [(hagree c).1, (hagree c).2.1, (hagree c).2.2]
    show Cert.ReferenceIdeal.Read.val_main_v20 (F := Ideal) _ _ _ = _
    unfold Cert.ReferenceIdeal.Read.val_main_v20
    rw [Cert.RefValue.ref_eq _ _ _ hc]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
